-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S768x12 : Shape := ⟨2, ![768, 12]⟩
abbrev S768x768 : Shape := ⟨2, ![768, 768]⟩
abbrev S768 : Shape := ⟨1, ![768]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S768x12 : S_.BroadcastsInDim S768x12 (![] : Fin 0 → Fin S768x12.rank)
  reducesTo_S768x12_S_d0_1 : S768x12.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S4x2048x768 .f32) (main_arg1 : FVec F S768x12 .f32) (main_arg2 : FVec F S768x768 .f32) (main_arg3 : FVec F S768 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S768x12 .f32 := Host.absf main_arg1
  let main_cst_0 : FVec F S_ .f32 := constant S_ .f32 0x7F800000#32
  let main_v5 : FVec F S768x12 .f32 := broadcastInDim S768x12 ![] bcast_S_S768x12 main_cst_0
  let main_v6 : IVec S768x12 1 := cmpf .olt main_v4 main_v5
  let main_c_1 : IVec S_ 1 := constantI S_ 1 1#1
  let main_v7 : IVec S_ 1 := (fun x v => Host.reduce IntOp.andi x v reducesTo_S768x12_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S4x2048x768 : Shape := ⟨3, ![4, 2048, 768]⟩
abbrev S768x12 : Shape := ⟨2, ![768, 12]⟩
abbrev S768x768 : Shape := ⟨2, ![768, 768]⟩
abbrev S768 : Shape := ⟨1, ![768]⟩
abbrev S8192x768 : Shape := ⟨2, ![8192, 768]⟩
abbrev S12x768 : Shape := ⟨2, ![12, 768]⟩
abbrev S1x768 : Shape := ⟨2, ![1, 768]⟩
abbrev S8192x9216 : Shape := ⟨2, ![8192, 9216]⟩
abbrev S256x768 : Shape := ⟨2, ![256, 768]⟩
abbrev S256x9216 : Shape := ⟨2, ![256, 9216]⟩
abbrev S4x2048x12x768 : Shape := ⟨4, ![4, 2048, 12, 768]⟩

abbrev nBuf : Space → Nat
  | .hbm => 9
  | .vmem => 7
  | .smem => 0
  | _ => 0

abbrev bufTy : (tb : Table) → Fin (tcTables nBuf tb) → BufTy
  | .hbm, ⟨0, _⟩ => ⟨S4x2048x768, .f32⟩
  | .hbm, ⟨1, _⟩ => ⟨S768x12, .f32⟩
  | .hbm, ⟨2, _⟩ => ⟨S768x768, .f32⟩
  | .hbm, ⟨3, _⟩ => ⟨S768, .f32⟩
  | .hbm, ⟨4, _⟩ => ⟨S8192x768, .f32⟩
  | .hbm, ⟨5, _⟩ => ⟨S12x768, .f32⟩
  | .hbm, ⟨6, _⟩ => ⟨S1x768, .f32⟩
  | .hbm, ⟨7, _⟩ => ⟨S8192x9216, .f32⟩
  | .hbm, ⟨8, _⟩ => ⟨S4x2048x12x768, .f32⟩
  | .local _ .vmem, ⟨0, _⟩ => ⟨S256x768, .f32⟩
  | .local _ .vmem, ⟨1, _⟩ => ⟨S256x768, .f32⟩
  | .local _ .vmem, ⟨2, _⟩ => ⟨S12x768, .f32⟩
  | .local _ .vmem, ⟨3, _⟩ => ⟨S768x768, .f32⟩
  | .local _ .vmem, ⟨4, _⟩ => ⟨S1x768, .f32⟩
  | .local _ .vmem, ⟨5, _⟩ => ⟨S256x9216, .f32⟩
  | .local _ .vmem, ⟨6, _⟩ => ⟨S256x9216, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x9216 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x2048x768_S8192x768 : S4x2048x768.ShapeCasts S8192x768
  transposes_S768x12_S12x768_1_0 : S768x12.Transposes [1, 0] S12x768
  shapeCasts_S768_S1x768 : S768.ShapeCasts S1x768
  inb_S256x768_S256x768_0_0 : ∀ a, (![0, 0] : Fin 2 → Nat) a + S256x768.size a ≤ S256x768.size a
  h_S256x768 : 0 < S256x768.numel
  shapeCasts_S256x768_S256x768 : S256x768.ShapeCasts S256x768
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  inb_S12x768_S1x768_0_0 : ∀ a, (![0, 0] : Fin 2 → Nat) a + S1x768.size a ≤ S12x768.size a
  shapeCasts_S1x768_S768 : S1x768.ShapeCasts S768
  broadcasts_S1x768_S768x768 : S1x768.Broadcasts S768x768
  broadcasts_S1x768_S256x768 : S1x768.Broadcasts S256x768
  inb_S256x9216_S256x768_0_0 : ∀ a, (![0, 0] : Fin 2 → Nat) a + S256x768.size a ≤ S256x9216.size a
  inb_S12x768_S1x768_1_0 : ∀ a, (![1, 0] : Fin 2 → Nat) a + S1x768.size a ≤ S12x768.size a
  inb_S256x9216_S256x768_0_768 : ∀ a, (![0, 768] : Fin 2 → Nat) a + S256x768.size a ≤ S256x9216.size a
  inb_S12x768_S1x768_2_0 : ∀ a, (![2, 0] : Fin 2 → Nat) a + S1x768.size a ≤ S12x768.size a
  inb_S256x9216_S256x768_0_1536 : ∀ a, (![0, 1536] : Fin 2 → Nat) a + S256x768.size a ≤ S256x9216.size a
  inb_S12x768_S1x768_3_0 : ∀ a, (![3, 0] : Fin 2 → Nat) a + S1x768.size a ≤ S12x768.size a
  inb_S256x9216_S256x768_0_2304 : ∀ a, (![0, 2304] : Fin 2 → Nat) a + S256x768.size a ≤ S256x9216.size a
  inb_S12x768_S1x768_4_0 : ∀ a, (![4, 0] : Fin 2 → Nat) a + S1x768.size a ≤ S12x768.size a
  inb_S256x9216_S256x768_0_3072 : ∀ a, (![0, 3072] : Fin 2 → Nat) a + S256x768.size a ≤ S256x9216.size a
  inb_S12x768_S1x768_5_0 : ∀ a, (![5, 0] : Fin 2 → Nat) a + S1x768.size a ≤ S12x768.size a
  inb_S256x9216_S256x768_0_3840 : ∀ a, (![0, 3840] : Fin 2 → Nat) a + S256x768.size a ≤ S256x9216.size a
  inb_S12x768_S1x768_6_0 : ∀ a, (![6, 0] : Fin 2 → Nat) a + S1x768.size a ≤ S12x768.size a
  inb_S256x9216_S256x768_0_4608 : ∀ a, (![0, 4608] : Fin 2 → Nat) a + S256x768.size a ≤ S256x9216.size a
  inb_S12x768_S1x768_7_0 : ∀ a, (![7, 0] : Fin 2 → Nat) a + S1x768.size a ≤ S12x768.size a
  inb_S256x9216_S256x768_0_5376 : ∀ a, (![0, 5376] : Fin 2 → Nat) a + S256x768.size a ≤ S256x9216.size a
  inb_S12x768_S1x768_8_0 : ∀ a, (![8, 0] : Fin 2 → Nat) a + S1x768.size a ≤ S12x768.size a
  inb_S256x9216_S256x768_0_6144 : ∀ a, (![0, 6144] : Fin 2 → Nat) a + S256x768.size a ≤ S256x9216.size a
  inb_S12x768_S1x768_9_0 : ∀ a, (![9, 0] : Fin 2 → Nat) a + S1x768.size a ≤ S12x768.size a
  inb_S256x9216_S256x768_0_6912 : ∀ a, (![0, 6912] : Fin 2 → Nat) a + S256x768.size a ≤ S256x9216.size a
  inb_S12x768_S1x768_10_0 : ∀ a, (![10, 0] : Fin 2 → Nat) a + S1x768.size a ≤ S12x768.size a
  inb_S256x9216_S256x768_0_7680 : ∀ a, (![0, 7680] : Fin 2 → Nat) a + S256x768.size a ≤ S256x9216.size a
  inb_S12x768_S1x768_11_0 : ∀ a, (![11, 0] : Fin 2 → Nat) a + S1x768.size a ≤ S12x768.size a
  inb_S256x9216_S256x768_0_8448 : ∀ a, (![0, 8448] : Fin 2 → Nat) a + S256x768.size a ≤ S256x9216.size a
  shapeCasts_S8192x9216_S4x2048x12x768 : S8192x9216.ShapeCasts S4x2048x12x768
  dot_S256x768_S768x768_S256x768_1_1_0_0_n_n_wf : DotDims.WF S256x768 S768x768 S256x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x768.size a ≤ S8192x768.size a
  hwx0_0 : ∀ i : grid0.Coords, EltTy.bits .f32 = 32 ∨ (Rect.block (s := S8192x768) S256x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x768.size a ≤ S12x768.size a
  hwx0_1 : ∀ i : grid0.Coords, EltTy.bits .f32 = 32 ∨ (Rect.block (s := S12x768) S12x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .f32 = 32 ∨ (Rect.block (s := S768x768) S768x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x9216.size a ≤ S8192x9216.size a
  hwx0_4 : ∀ i : grid0.Coords, EltTy.bits .f32 = 32 ∨ (Rect.block (s := S8192x9216) S256x9216.size (cc0_transform_4 i) (hinb0_4 i)).WholeWords (EltTy.packing .f32)

variable [Facts₀]

def dot_S256x768_S768x768_S256x768_1_1_0_0_n_n : DotDims S256x768 S768x768 S256x768 where
  lhsContracting := [1]
  rhsContracting := [1]
  lhsNonContracting := [0]
  rhsNonContracting := [0]
  lhsBatch := []
  rhsBatch := []
  wf := dot_S256x768_S768x768_S256x768_1_1_0_0_n_n_wf

abbrev win0_0 : Pipeline.Window sig grid0 :=
  Pipeline.Window.ofSpec (Memref.whole main_v0) S256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S12x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x9216.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x768 : Shape := ⟨3, ![4, 2048, 768]⟩
abbrev S768x12 : Shape := ⟨2, ![768, 12]⟩
abbrev S768x768 : Shape := ⟨2, ![768, 768]⟩
abbrev S768 : Shape := ⟨1, ![768]⟩
abbrev S4x2048x1x768 : Shape := ⟨4, ![4, 2048, 1, 768]⟩
abbrev S12x768 : Shape := ⟨2, ![12, 768]⟩
abbrev S1x1x12x768 : Shape := ⟨4, ![1, 1, 12, 768]⟩
abbrev S4x2048x12x768 : Shape := ⟨4, ![4, 2048, 12, 768]⟩
abbrev S1x1x1x768 : Shape := ⟨4, ![1, 1, 1, 768]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S768x12, .f32⟩
  | .hbm, ⟨2, _⟩ => ⟨S768x768, .f32⟩
  | .hbm, ⟨3, _⟩ => ⟨S768, .f32⟩
  | .hbm, ⟨4, _⟩ => ⟨S4x2048x1x768, .f32⟩
  | .hbm, ⟨5, _⟩ => ⟨S12x768, .f32⟩
  | .hbm, ⟨6, _⟩ => ⟨S1x1x12x768, .f32⟩
  | .hbm, ⟨7, _⟩ => ⟨S4x2048x12x768, .f32⟩
  | .hbm, ⟨8, _⟩ => ⟨S4x2048x12x768, .f32⟩
  | .hbm, ⟨9, _⟩ => ⟨S4x2048x12x768, .f32⟩
  | .hbm, ⟨10, _⟩ => ⟨S4x2048x12x768, .f32⟩
  | .hbm, ⟨11, _⟩ => ⟨S1x1x1x768, .f32⟩
  | .hbm, ⟨12, _⟩ => ⟨S4x2048x12x768, .f32⟩
  | .hbm, ⟨13, _⟩ => ⟨S4x2048x12x768, .f32⟩
  | .hbm, ⟨14, _⟩ => ⟨S_, .f32⟩
  | .hbm, ⟨15, _⟩ => ⟨S4x2048x12x768, .f32⟩
  | .hbm, ⟨16, _⟩ => ⟨S4x2048x12x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_cst : Ref sig .tc := ⟨.hbm, 14, rfl⟩
abbrev main_call0_v0 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S4x2048x768_S4x2048x1x768_0_1_3 : S4x2048x768.BroadcastsInDim S4x2048x1x768 (![0, 1, 3] : Fin 3 → Fin S4x2048x1x768.rank)
  transposes_S768x12_S12x768_1_0 : S768x12.Transposes [1, 0] S12x768
  bcast_S12x768_S1x1x12x768_2_3 : S12x768.BroadcastsInDim S1x1x12x768 (![2, 3] : Fin 2 → Fin S1x1x12x768.rank)
  bcast_S4x2048x1x768_S4x2048x12x768_0_1_2_3 : S4x2048x1x768.BroadcastsInDim S4x2048x12x768 (![0, 1, 2, 3] : Fin 4 → Fin S4x2048x12x768.rank)
  bcast_S1x1x12x768_S4x2048x12x768_0_1_2_3 : S1x1x12x768.BroadcastsInDim S4x2048x12x768 (![0, 1, 2, 3] : Fin 4 → Fin S4x2048x12x768.rank)
  bcast_S768_S1x1x1x768_3 : S768.BroadcastsInDim S1x1x1x768 (![3] : Fin 1 → Fin S1x1x1x768.rank)
  bcast_S1x1x1x768_S4x2048x12x768_0_1_2_3 : S1x1x1x768.BroadcastsInDim S4x2048x12x768 (![0, 1, 2, 3] : Fin 4 → Fin S4x2048x12x768.rank)
  bcast_S_S4x2048x12x768 : S_.BroadcastsInDim S4x2048x12x768 (![] : Fin 0 → Fin S4x2048x12x768.rank)
  dot_S4x2048x12x768_S768x768_S4x2048x12x768_3_1_012_0_n_n_wf : DotDims.WF S4x2048x12x768 S768x768 S4x2048x12x768 [3] [1] [0, 1, 2] [0] [] []

variable [Facts₀]

def dot_S4x2048x12x768_S768x768_S4x2048x12x768_3_1_012_0_n_n : DotDims S4x2048x12x768 S768x768 S4x2048x12x768 where
  lhsContracting := [3]
  rhsContracting := [1]
  lhsNonContracting := [0, 1, 2]
  rhsNonContracting := [0]
  lhsBatch := []
  rhsBatch := []
  wf := dot_S4x2048x12x768_S768x768_S4x2048x12x768_3_1_012_0_n_n_wf

class Facts : Prop extends Facts₀ where

variable [Facts]
-- ==== Proof.Spec.lean ====
/-
  The mathematics of the span-query layer, with no program in sight.

  One entry of the result depends on three vectors of length 768 and a bias:
      entry x w r β = max (∑ d, x d * (w d * r d) + β) 0 ,
  where `x` is a row of the hidden states, `w` a row of the weight, `r` a column of the width table
  (a row of its transpose) and `β` one bias entry. The kernel scales the weight row by `r` first and
  contracts afterwards; the reference scales the hidden row by `r` first and contracts that against the
  weight row. The two arrangements are the same extended real because multiplication there is commutative
  and associative; no distributivity and no cancellation is used, so no input has to be finite.

  The same entry is then laid out three ways: over one 256-row block whose 9216 columns are twelve groups of
  768 (column `768 * s + e` holds width `s`, feature `e`), over the whole 8192 × 9216 array, and over
  the 4-dimensional result.
-/
import Idealize.ShloMosaic.PureOps.Ideal
import Idealize.ShloMosaic.Lib.ValueIdx

noncomputable section

open scoped BigOperators
open Idealize.ShloMosaic Idealize.ShloMosaic.ValueIdx

namespace Cert.SpanQuery

/-- One entry of the layer: the contraction of a hidden row against a weight row scaled by a width row, plus
    the bias, clamped below at zero. -/
def entry (x w r : Fin 768 → EReal) (β : EReal) : EReal :=
  max ((∑ d : Fin 768, x d * (w d * r d)) + β) 0

/-- Scaling the hidden row first and contracting against the bare weight row gives the same entry: each
    summand is re-bracketed and two factors swapped. -/
theorem entry_of_scaled_row (x w r : Fin 768 → EReal) (β : EReal) :
    max ((∑ d : Fin 768, (x d * r d) * w d) + β) 0 = entry x w r β := by
  unfold entry
  have e : (∑ d : Fin 768, (x d * r d) * w d) = ∑ d : Fin 768, x d * (w d * r d) :=
    Finset.sum_congr rfl fun d _ => by rw [mul_assoc, mul_comm (r d) (w d)]
  rw [e]

/-- Entries of equal rows and equal bias are equal. -/
theorem entry_congr {x x' w w' r r' : Fin 768 → EReal} {β β' : EReal} (hx : ∀ d, x d = x' d) (hw : ∀ d, w d = w' d)
    (hr : ∀ d, r d = r' d) (hβ : β = β') : entry x w r β = entry x' w' r' β' := by
  rw [funext hx, funext hw, funext hr, hβ]

/-- A column of the 9216 as (width, feature): the quotient and remainder by 768. -/
theorem col_div_lt (j : Fin 9216) : j.val / 768 < 12 := by have := j.isLt; omega
theorem col_mod_lt (j : Fin 9216) : j.val % 768 < 768 := Nat.mod_lt _ (by decide)

/-- The layer over a block of `R` rows: entry (row `p`, column `j`) contracts hidden row `p` against weight
    row `j % 768` scaled by width row `j / 768`, with bias entry `j % 768`. -/
def rows {R : Nat} (x : (⟨2, ![R, 768]⟩ : Shape).Idx → EReal) (qt : (⟨2, ![12, 768]⟩ : Shape).Idx → EReal)
    (W : (⟨2, ![768, 768]⟩ : Shape).Idx → EReal) (b2 : (⟨2, ![1, 768]⟩ : Shape).Idx → EReal) :
    (⟨2, ![R, 9216]⟩ : Shape).Idx → EReal :=
  fun j => entry (fun d => x (ix2 (j 0) d)) (fun d => W (ix2 ⟨(j 1).val % 768, col_mod_lt (j 1)⟩ d))
    (fun d => qt (ix2 ⟨(j 1).val / 768, col_div_lt (j 1)⟩ d)) (b2 (ix2 ⟨0, Nat.one_pos⟩ ⟨(j 1).val % 768, col_mod_lt (j 1)⟩))

/-- The layer over the arguments as given: entry (batch, position, width, feature). -/
def layer (h : (⟨3, ![4, 2048, 768]⟩ : Shape).Idx → EReal) (q : (⟨2, ![768, 12]⟩ : Shape).Idx → EReal)
    (W : (⟨2, ![768, 768]⟩ : Shape).Idx → EReal) (b : (⟨1, ![768]⟩ : Shape).Idx → EReal) :
    (⟨4, ![4, 2048, 12, 768]⟩ : Shape).Idx → EReal :=
  fun i => entry (fun d => h (ix3 (i 0) (i 1) d)) (fun d => W (ix2 (i 3) d)) (fun d => q (ix2 d (i 2))) (b (ix1 (i 3)))

end Cert.SpanQuery

end
-- ==== Proof.RefValue.lean ====
/-
  The reference computes the layer.

  Read one operation at a time, the reference's result at (batch, position, width, feature) is
      max (∑ d, (h[batch, position, d] * q[d, width]) * W[feature, d] + b[feature]) 0 :
  the two broadcasts put the hidden row and the transposed width row side by side, the product is taken
  entrywise, the general dot contracts the last axis against the weight's second axis, the bias is broadcast
  along the last axis, and the call to relu is a maximum with the zero constant. That is the layer's entry
  with the hidden row scaled first, which the specification module shows equal to the entry as defined.
-/
import proofs.«171266_j39599598469525_1_alg».proof.Proof.Gen.ReferenceIdeal.Read
import proofs.«171266_j39599598469525_1_alg».proof.Proof.Spec

noncomputable section

open scoped BigOperators

namespace Cert.ReferenceIdeal.RefValue

open Cert.ReferenceIdeal Cert.ReferenceIdeal.Read Idealize.ShloMosaic Idealize.ShloMosaic.TcCoe
open Idealize.ShloMosaic.ValueIdx

/-- Through the two broadcasts, the hidden states are read at (batch, position, d). -/
theorem hidden_idx (i : S4x2048x12x768.Idx) (k : Fin 768) :
    idx_main_v0 (idx_main_v3 (lidx_main_v6 i k)) = ix3 (i 0) (i 1) k :=
  funext fun a => Fin.ext (by match a with | ⟨0, _⟩ => rfl | ⟨1, _⟩ => rfl | ⟨2, _⟩ => rfl)

/-- Through the transpose and the two broadcasts, the width table is read at (d, width). -/
theorem width_idx (i : S4x2048x12x768.Idx) (k : Fin 768) :
    idx_main_v1 (idx_main_v2 (idx_main_v4 (lidx_main_v6 i k))) = ix2 k (i 2) :=
  funext fun a => Fin.ext (by match a with | ⟨0, _⟩ => rfl | ⟨1, _⟩ => rfl)

/-- The weight is read at (feature, d). -/
theorem weight_idx (i : S4x2048x12x768.Idx) (k : Fin 768) : ridx_main_v6 i k = ix2 (i 3) k :=
  funext fun a => Fin.ext (by match a with | ⟨0, _⟩ => rfl | ⟨1, _⟩ => rfl)

/-- Through its two broadcasts, the bias is read at the feature. -/
theorem bias_idx (i : S4x2048x12x768.Idx) : idx_main_v7 (idx_main_v8 i) = ix1 (i 3) :=
  funext fun a => Fin.ext (by match a with | ⟨0, _⟩ => rfl)

/-- The reference's last stage, at the ideal values, is the layer of the four arguments. -/
theorem stage_eq_layer (x0 : (⟨S4x2048x768, .f32⟩ : BufTy).Contents (Elt Ideal)) (x1 : (⟨S768x12, .f32⟩ : BufTy).Contents (Elt Ideal))
    (x2 : (⟨S768x768, .f32⟩ : BufTy).Contents (Elt Ideal)) (x3 : (⟨S768, .f32⟩ : BufTy).Contents (Elt Ideal)) :
    val_main_v10 (F := Ideal) x0 x1 x2 x3 = Cert.SpanQuery.layer x0 x1 x2 x3 := by
  funext i
  rw [val_main_v10_apply, val_main_v9_apply, val_main_v6_apply, val_main_v8_apply, val_main_v7_apply,
    val_main_call0_v0_apply, val_main_call0_cst_apply]
  simp only [val_main_v5_apply, val_main_v3_apply, val_main_v0_apply, val_main_v4_apply, val_main_v2_apply,
    val_main_v1_apply, hidden_idx, width_idx, weight_idx, bias_idx, Ideal.mulf_def, Ideal.addf_def,
    Ideal.maximumf_def, Ideal.ofBits_def, Ideal.ofBits_zero_f32]
  exact Cert.SpanQuery.entry_of_scaled_row (fun d => x0 (ix3 (i 0) (i 1) d)) (fun d => x2 (ix2 (i 3) d))
    (fun d => x1 (ix2 d (i 2))) (x3 (ix1 (i 3)))

end Cert.ReferenceIdeal.RefValue

end
-- ==== Proof.Tile.lean ====
/-
  One width's tile of the kernel body, read at an entry.

  For a fixed width the body takes the block of hidden rows `x` (256 × 768), the weight `w` (768 × 768), the bias
  row `β` (1 × 768) and one row `r` of the transposed width table (1 × 768). It spreads `r` down the rows of the
  weight, multiplies entrywise, contracts the hidden block against that scaled weight along both last axes into a
  zero accumulator, adds the bias spread down the rows and clamps below at zero. The changes of float format on
  the way are the identity on extended reals, and the row's trip through the flat shape and back is the identity.
  So entry (p, e) of the tile is
      max (∑ d, x[p, d] * (w[e, d] * r[0, d]) + β[0, e]) 0 ,
  the specification's entry of hidden row p, weight row e, width row r and bias entry e.
-/
import proofs.«171266_j39599598469525_1_alg».proof.Proof.Gen.KernelIdeal.Skeleton
import proofs.«171266_j39599598469525_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.TcCoe
open Idealize.ShloMosaic.ValueIdx

/-! ## The contraction's operand indices

The product contracts axis 1 of the hidden block against axis 1 of the scaled weight; the output's row is the hidden
block's row and the output's column is the weight's ROW. -/

theorem lhs_row (i : S256x768.Idx) (q : dot_S256x768_S768x768_S256x768_1_1_0_0_n_n.contr.Idx) :
    (dot_S256x768_S768x768_S256x768_1_1_0_0_n_n.lhsIdx i q 0).val = (i 0).val := by
  unfold DotDims.lhsIdx
  rw [dif_neg (show ¬(0 : Fin S256x768.rank) ∈ dot_S256x768_S768x768_S256x768_1_1_0_0_n_n.lhsBatch by decide), dif_pos (show (0 : Fin S256x768.rank) ∈ dot_S256x768_S768x768_S256x768_1_1_0_0_n_n.lhsNonContracting by decide)]
  rfl
theorem lhs_contr (i : S256x768.Idx) (q : dot_S256x768_S768x768_S256x768_1_1_0_0_n_n.contr.Idx) :
    (dot_S256x768_S768x768_S256x768_1_1_0_0_n_n.lhsIdx i q 1).val = (q ⟨0, by decide⟩).val :=
  dot_S256x768_S768x768_S256x768_1_1_0_0_n_n.lhsIdx_val_of_single rfl i q
theorem rhs_row (i : S256x768.Idx) (q : dot_S256x768_S768x768_S256x768_1_1_0_0_n_n.contr.Idx) :
    (dot_S256x768_S768x768_S256x768_1_1_0_0_n_n.rhsIdx i q 0).val = (i 1).val := by
  unfold DotDims.rhsIdx
  rw [dif_neg (show ¬(0 : Fin S768x768.rank) ∈ dot_S256x768_S768x768_S256x768_1_1_0_0_n_n.rhsBatch by decide), dif_pos (show (0 : Fin S768x768.rank) ∈ dot_S256x768_S768x768_S256x768_1_1_0_0_n_n.rhsNonContracting by decide)]
  rfl
theorem rhs_contr (i : S256x768.Idx) (q : dot_S256x768_S768x768_S256x768_1_1_0_0_n_n.contr.Idx) :
    (dot_S256x768_S768x768_S256x768_1_1_0_0_n_n.rhsIdx i q 1).val = (q ⟨0, by decide⟩).val :=
  dot_S256x768_S768x768_S256x768_1_1_0_0_n_n.rhsIdx_val_of_single rfl i q

/-- The product into the zero accumulator at (p, e): hidden row p against row e of the right operand. -/
theorem contract_apply (a : FVec Ideal S256x768 .bf16) (v : FVec Ideal S768x768 .bf16) (p : Fin 256) (e : Fin 768) :
    matmul dot_S256x768_S768x768_S256x768_1_1_0_0_n_n none a v (constant S256x768 .f32 0x00000000#32) (ix2 p e)
      = ∑ k : Fin 768, a (ix2 p k) * v (ix2 e k) := by
  refine (Ideal.matmul_constant_zero_apply dot_S256x768_S768x768_S256x768_1_1_0_0_n_n none a v (ix2 p e)).trans ?_
  rw [← Equiv.sum_comp (ValueIdx.contrEquiv1 dot_S256x768_S768x768_S256x768_1_1_0_0_n_n 768 rfl rfl).symm]
  refine Finset.sum_congr rfl fun k _ => ?_
  have hk := ValueIdx.contrEquiv1_symm_val dot_S256x768_S768x768_S256x768_1_1_0_0_n_n 768 rfl rfl k
  have el : dot_S256x768_S768x768_S256x768_1_1_0_0_n_n.lhsIdx (ix2 p e) ((ValueIdx.contrEquiv1 dot_S256x768_S768x768_S256x768_1_1_0_0_n_n 768 rfl rfl).symm k) = ix2 p k := funext fun a => Fin.ext (by
    match a with
    | ⟨0, _⟩ => exact lhs_row _ _
    | ⟨1, _⟩ => exact (lhs_contr _ _).trans hk)
  have er : dot_S256x768_S768x768_S256x768_1_1_0_0_n_n.rhsIdx (ix2 p e) ((ValueIdx.contrEquiv1 dot_S256x768_S768x768_S256x768_1_1_0_0_n_n 768 rfl rfl).symm k) = ix2 e k := funext fun a => Fin.ext (by
    match a with
    | ⟨0, _⟩ => exact rhs_row _ _
    | ⟨1, _⟩ => exact (rhs_contr _ _).trans hk)
  rw [el, er]

/-! ## A row spread down the rows -/

/-- A 1 × 768 row spread to `R` rows reads, at (a, k), the row's entry k. -/
theorem spread_apply {R : Nat} (r : (⟨2, ![1, 768]⟩ : Shape).Idx → EReal) (h : (⟨2, ![1, 768]⟩ : Shape).Broadcasts ⟨2, ![R, 768]⟩)
    (a : Fin R) (k : Fin 768) :
    broadcastTo (⟨2, ![R, 768]⟩ : Shape) r h (ix2 a k) = r (ix2 ⟨0, Nat.one_pos⟩ k) :=
  broadcastTo_apply r h (ix2 a k) (ix2 ⟨0, Nat.one_pos⟩ k) (fun b => match b with
    | ⟨0, _⟩ => by show (0 : Nat) = if (1 : Nat) = 1 then 0 else _; rw [if_pos rfl]
    | ⟨1, _⟩ => by show k.val = if (768 : Nat) = 1 then 0 else k.val; rw [if_neg (by decide)])

/-! ## The tile -/

/-- The weight scaled by a width row, in the contraction's operand format. -/
def scaledWeight (w : Vec Ideal S768x768 .f32) (r : Vec Ideal S1x768 .f32) : FVec Ideal S768x768 .bf16 :=
  truncf .bf16 (mulf w (broadcastTo S768x768 (shapeCast S1x768 (shapeCast S768 r shapeCasts_S1x768_S768) shapeCasts_S768_S1x768)
    broadcasts_S1x768_S768x768)) bitsLt_bf16_f32

/-- From the contraction's result to the stored value: plus the bias row spread down, clamped below at zero. -/
def biasRelu (acc : FVec Ideal S256x768 .f32) (β : FVec Ideal S1x768 .f32) : FVec Ideal S256x768 .f32 :=
  maximumf (addf acc (broadcastTo S256x768 β broadcasts_S1x768_S256x768)) (broadcast S256x768 (Scalar.ofBits .f32 0x00000000#32))

/-- One width's tile, as one term of the four values the body reads for it. -/
def tile (a : FVec Ideal S256x768 .bf16) (w : Vec Ideal S768x768 .f32) (β : FVec Ideal S1x768 .f32) (r : Vec Ideal S1x768 .f32) :
    FVec Ideal S256x768 .f32 :=
  biasRelu (matmul dot_S256x768_S768x768_S256x768_1_1_0_0_n_n none a (scaledWeight w r) (constant S256x768 .f32 0x00000000#32)) β

theorem scaledWeight_apply (w : Vec Ideal S768x768 .f32) (r : Vec Ideal S1x768 .f32) (e k : Fin 768) :
    scaledWeight w r (ix2 e k) = w (ix2 e k) * r (ix2 ⟨0, Nat.one_pos⟩ k) := by
  unfold scaledWeight
  rw [truncf_apply, mulf_apply, shapeCast_shapeCast, spread_apply]

theorem biasRelu_apply (acc : FVec Ideal S256x768 .f32) (β : FVec Ideal S1x768 .f32) (p : Fin 256) (e : Fin 768) :
    biasRelu acc β (ix2 p e) = max (acc (ix2 p e) + β (ix2 ⟨0, Nat.one_pos⟩ e)) 0 := by
  unfold biasRelu
  rw [maximumf_apply, addf_apply, broadcast_apply, spread_apply]
  show max _ (Ideal.ofBits .f32 0x00000000#32) = _
  rw [Ideal.ofBits_zero_f32]

/-- Entry (p, e) of a width's tile is the specification's entry. -/
theorem tile_apply (a : FVec Ideal S256x768 .bf16) (w : Vec Ideal S768x768 .f32) (β : FVec Ideal S1x768 .f32) (r : Vec Ideal S1x768 .f32)
    (p : Fin 256) (e : Fin 768) :
    tile a w β r (ix2 p e)
      = Cert.SpanQuery.entry (fun d => a (ix2 p d)) (fun d => w (ix2 e d)) (fun d => r (ix2 ⟨0, Nat.one_pos⟩ d)) (β (ix2 ⟨0, Nat.one_pos⟩ e)) := by
  unfold tile Cert.SpanQuery.entry
  rw [biasRelu_apply, contract_apply]
  simp only [scaledWeight_apply]

end Cert.KernelIdeal.Tile

end
-- ==== Proof.Block.lean ====
/-
  What one grid point leaves in the output's staging buffer.

  The body makes twelve stores into the 256 × 9216 buffer, one per width: the tile for width s goes to columns
  768 * s … 768 * s + 767, and it is computed from row s of the transposed width table. The sixteen named payloads
  of the body are that one tile, cut at different places (two carry the casts of the hidden block and of the bias
  row inside them, one is handed its scaled weight, one is the clamp of a sum handed to it). Entry (p, 768 * s + e)
  of the buffer is therefore the tile of width s at (p, e), and since column j determines s = j / 768 and
  e = j % 768 the buffer is the layer over the block's 256 rows.
-/
import proofs.«171266_j39599598469525_1_alg».proof.Proof.Gen.KernelIdeal.Frame
import proofs.«171266_j39599598469525_1_alg».proof.Proof.Tile

set_option maxRecDepth 16384

noncomputable section

open scoped BigOperators

namespace Cert.KernelIdeal.Block

open Cert.KernelIdeal Cert.KernelIdeal.Gen Cert.KernelIdeal.Tile Idealize.ShloMosaic Idealize.ShloMosaic.TcCoe
open Idealize.ShloMosaic.ValueIdx

/-! ## Every payload is the tile -/

/-- The first two widths' payloads carry the hidden block's and the bias row's casts inside them. -/
theorem pay3_eq (v0 : Vec Ideal S256x768 .f32) (v3 : Vec Ideal S768x768 .f32) (v4 : Vec Ideal S1x768 .f32) (r : Vec Ideal S1x768 .f32) :
    k0_pay3 (F := Ideal) v0 v3 v4 r = tile (k0_pay1 v0) v3 (k0_pay2 v4) r := rfl
theorem pay4_eq (v0 : Vec Ideal S256x768 .f32) (v3 : Vec Ideal S768x768 .f32) (v4 : Vec Ideal S1x768 .f32) (r : Vec Ideal S1x768 .f32) :
    k0_pay4 (F := Ideal) v0 v3 v4 r = tile (k0_pay1 v0) v3 (k0_pay2 v4) r := rfl
/-- The third width's payload is handed its scaled weight and its zero accumulator. -/
theorem pay6_eq (v2 : FVec Ideal S256x768 .bf16) (v3 : Vec Ideal S768x768 .f32) (v5 : FVec Ideal S1x768 .f32) (r : Vec Ideal S1x768 .f32) :
    k0_pay6 (F := Ideal) v2 v5 (k0_pay5 v3 r) (constant S256x768 .f32 0x00000000#32) = tile v2 v3 v5 r := rfl
/-- The sixth width's payload is the clamp of a sum handed to it. -/
theorem pay10_eq (v2 : FVec Ideal S256x768 .bf16) (v3 : Vec Ideal S768x768 .f32) (v5 : FVec Ideal S1x768 .f32) (r : Vec Ideal S1x768 .f32) :
    k0_pay10 (F := Ideal) (k0_pay9 v2 v3 v5 r) = tile v2 v3 v5 r := rfl
theorem pay7_eq (v2 : FVec Ideal S256x768 .bf16) (v3 : Vec Ideal S768x768 .f32) (v5 : FVec Ideal S1x768 .f32) (r : Vec Ideal S1x768 .f32) :
    k0_pay7 (F := Ideal) v2 v3 v5 r = tile v2 v3 v5 r := rfl
theorem pay8_eq (v2 : FVec Ideal S256x768 .bf16) (v3 : Vec Ideal S768x768 .f32) (v5 : FVec Ideal S1x768 .f32) (r : Vec Ideal S1x768 .f32) :
    k0_pay8 (F := Ideal) v2 v3 v5 r = tile v2 v3 v5 r := rfl
theorem pay11_eq (v2 : FVec Ideal S256x768 .bf16) (v3 : Vec Ideal S768x768 .f32) (v5 : FVec Ideal S1x768 .f32) (r : Vec Ideal S1x768 .f32) :
    k0_pay11 (F := Ideal) v2 v3 v5 r = tile v2 v3 v5 r := rfl
theorem pay12_eq (v2 : FVec Ideal S256x768 .bf16) (v3 : Vec Ideal S768x768 .f32) (v5 : FVec Ideal S1x768 .f32) (r : Vec Ideal S1x768 .f32) :
    k0_pay12 (F := Ideal) v2 v3 v5 r = tile v2 v3 v5 r := rfl
theorem pay13_eq (v2 : FVec Ideal S256x768 .bf16) (v3 : Vec Ideal S768x768 .f32) (v5 : FVec Ideal S1x768 .f32) (r : Vec Ideal S1x768 .f32) :
    k0_pay13 (F := Ideal) v2 v3 v5 r = tile v2 v3 v5 r := rfl
theorem pay14_eq (v2 : FVec Ideal S256x768 .bf16) (v3 : Vec Ideal S768x768 .f32) (v5 : FVec Ideal S1x768 .f32) (r : Vec Ideal S1x768 .f32) :
    k0_pay14 (F := Ideal) v2 v3 v5 r = tile v2 v3 v5 r := rfl
theorem pay15_eq (v2 : FVec Ideal S256x768 .bf16) (v3 : Vec Ideal S768x768 .f32) (v5 : FVec Ideal S1x768 .f32) (r : Vec Ideal S1x768 .f32) :
    k0_pay15 (F := Ideal) v2 v3 v5 r = tile v2 v3 v5 r := rfl
theorem pay16_eq (v2 : FVec Ideal S256x768 .bf16) (v3 : Vec Ideal S768x768 .f32) (v5 : FVec Ideal S1x768 .f32) (r : Vec Ideal S1x768 .f32) :
    k0_pay16 (F := Ideal) v2 v3 v5 r = tile v2 v3 v5 r := rfl

/-! ## The casts of the hidden block and of the bias row are the identity -/

theorem zero_off : (![0, 0] : Fin 2 → Nat) = fun _ => 0 := by
  funext a; match a with | ⟨0, _⟩ => rfl | ⟨1, _⟩ => rfl

theorem hidden_cast (v0 : Vec Ideal S256x768 .f32) : k0_pay1 (F := Ideal) v0 = v0 := by
  funext i
  show (truncf (F := Ideal) .bf16 (shapeCast S256x768 v0 shapeCasts_S256x768_S256x768) bitsLt_bf16_f32 : FVec Ideal S256x768 .bf16) i = v0 i
  rw [truncf_apply, shapeCast_self]

theorem bias_cast (v4 : Vec Ideal S1x768 .f32) : k0_pay2 (F := Ideal) v4 = v4 :=
  shapeCast_self v4 shapeCasts_S1x768_S1x768

/-! ## A width's tile in its place -/

/-- The tile of width `s`, stored at column offset `c = 768 * s`, is the layer over the block's rows there: at the
    buffer's entry (p, c + e) the column's quotient by 768 is s and its remainder e. -/
theorem tile_at_block (x0 : Vec Ideal S256x768 .f32) (x1 : Vec Ideal S12x768 .f32) (x2 : Vec Ideal S768x768 .f32) (x3 : Vec Ideal S1x768 .f32)
    (s c : Nat) (hc : c = 768 * s)
    (inbq : ∀ a, (![s, 0] : Fin 2 → Nat) a + S1x768.size a ≤ S12x768.size a)
    (inbo : ∀ a, (![0, c] : Fin 2 → Nat) a + S256x768.size a ≤ S256x9216.size a)
    (x : S256x768.Idx) :
    tile (k0_pay1 (View.ld x0 r0_0)) (View.ld x2 r0_1) (k0_pay2 (View.ld x3 r0_2))
        (View.ld x1 (Rect.unit (s := S12x768) ![s, 0] S1x768.size inbq)) x
      = Cert.SpanQuery.rows x0 x1 x2 x3 ((Rect.unit (s := S256x9216) ![0, c] S256x768.size inbo).emb x) := by
  subst hc
  obtain ⟨p, e, rfl⟩ : ∃ (p : Fin 256) (e : Fin 768), x = ix2 p e := ⟨x 0, x 1, eq_ix2 x⟩
  rw [tile_apply, hidden_cast, bias_cast, View.ld_unit_zero (S := S256x768) zero_off, View.ld_unit_zero (S := S768x768) zero_off,
    View.ld_unit_zero (S := S1x768) zero_off]
  unfold Cert.SpanQuery.rows
  have he := e.isLt
  refine Cert.SpanQuery.entry_congr (fun d => ?_) (fun d => ?_) (fun d => ?_) ?_
  · exact congrArg x0 (Shape.idx_ext₂ (by show p.val = 0 + 1 * p.val; omega) rfl)
  · exact congrArg x2 (Shape.idx_ext₂ (by show e.val = (768 * s + 1 * e.val) % 768; omega) rfl)
  · exact congrArg x1 (Shape.idx_ext₂ (by show s + 1 * 0 = (768 * s + 1 * e.val) / 768; omega) (by show 0 + 1 * d.val = d.val; omega))
  · exact congrArg x3 (Shape.idx_ext₂ rfl (by show e.val = (768 * s + 1 * e.val) % 768; omega))

/-! ## The buffer after the body -/

/-- The output's staging buffer after the body is the layer over the point's 256 hidden rows. -/
theorem out_eq_rows (x0 : Vec Ideal S256x768 .f32) (x1 : Vec Ideal S12x768 .f32) (x2 : Vec Ideal S768x768 .f32) (x3 : Vec Ideal S1x768 .f32) :
    out0_4 (F := Ideal) x0 x1 x2 x3 = Cert.SpanQuery.rows x0 x1 x2 x3 := by
  funext y
  unfold out0_4
  refine View.canon_apply_of_pieces (Val := Elt Ideal) (S := S256x9216) (e := .f32) (Cert.SpanQuery.rows x0 x1 x2 x3) _ ?_ y
    (cover0_4 _ _ _ _ _ _ _ _ _ _ _ _ y)
  intro pc hpc
  simp only [List.mem_cons, List.mem_nil_iff, or_false] at hpc
  rcases hpc with rfl | rfl | rfl | rfl | rfl | rfl | rfl | rfl | rfl | rfl | rfl | rfl
  · exact fun x => (congrFun (pay16_eq _ _ _ _) x).trans (tile_at_block x0 x1 x2 x3 11 8448 (by decide) inb_S12x768_S1x768_11_0 inb_S256x9216_S256x768_0_8448 x)
  · exact fun x => (congrFun (pay15_eq _ _ _ _) x).trans (tile_at_block x0 x1 x2 x3 10 7680 (by decide) inb_S12x768_S1x768_10_0 inb_S256x9216_S256x768_0_7680 x)
  · exact fun x => (congrFun (pay14_eq _ _ _ _) x).trans (tile_at_block x0 x1 x2 x3 9 6912 (by decide) inb_S12x768_S1x768_9_0 inb_S256x9216_S256x768_0_6912 x)
  · exact fun x => (congrFun (pay13_eq _ _ _ _) x).trans (tile_at_block x0 x1 x2 x3 8 6144 (by decide) inb_S12x768_S1x768_8_0 inb_S256x9216_S256x768_0_6144 x)
  · exact fun x => (congrFun (pay12_eq _ _ _ _) x).trans (tile_at_block x0 x1 x2 x3 7 5376 (by decide) inb_S12x768_S1x768_7_0 inb_S256x9216_S256x768_0_5376 x)
  · exact fun x => (congrFun (pay11_eq _ _ _ _) x).trans (tile_at_block x0 x1 x2 x3 6 4608 (by decide) inb_S12x768_S1x768_6_0 inb_S256x9216_S256x768_0_4608 x)
  · exact fun x => (congrFun (pay10_eq _ _ _ _) x).trans (tile_at_block x0 x1 x2 x3 5 3840 (by decide) inb_S12x768_S1x768_5_0 inb_S256x9216_S256x768_0_3840 x)
  · exact fun x => (congrFun (pay8_eq _ _ _ _) x).trans (tile_at_block x0 x1 x2 x3 4 3072 (by decide) inb_S12x768_S1x768_4_0 inb_S256x9216_S256x768_0_3072 x)
  · exact fun x => (congrFun (pay7_eq _ _ _ _) x).trans (tile_at_block x0 x1 x2 x3 3 2304 (by decide) inb_S12x768_S1x768_3_0 inb_S256x9216_S256x768_0_2304 x)
  · exact fun x => (congrFun (pay6_eq _ _ _ _) x).trans (tile_at_block x0 x1 x2 x3 2 1536 (by decide) inb_S12x768_S1x768_2_0 inb_S256x9216_S256x768_0_1536 x)
  · exact fun x => (congrFun (pay4_eq _ _ _ _) x).trans (tile_at_block x0 x1 x2 x3 1 768 (by decide) inb_S12x768_S1x768_1_0 inb_S256x9216_S256x768_0_768 x)
  · exact fun x => (congrFun (pay3_eq _ _ _ _) x).trans (tile_at_block x0 x1 x2 x3 0 0 (by decide) inb_S12x768_S1x768_0_0 inb_S256x9216_S256x768_0_0 x)

end Cert.KernelIdeal.Block

end
-- ==== Proof.KernelValue.lean ====
/-
  The kernel's result array as one function of the arguments.

  Before the region the host lays the hidden states out as 8192 rows (row 2048 * batch + position), transposes the
  width table to 12 × 768 and views the bias as one row. Grid point t stages hidden rows 256 t … 256 t + 255 and the
  whole of the other three arrays, and writes back rows 256 t … 256 t + 255 of the 8192 × 9216 output. What it writes is
  the layer over its 256 hidden rows, so it is block t of the layer over all 8192 rows; the 32 blocks tile the output,
  so after the run the output is that layer. The host then views row 2048 * batch + position, column 768 * width +
  feature as (batch, position, width, feature), and reading the three host layouts back gives the layer of the
  arguments as given.
-/
import proofs.«171266_j39599598469525_1_alg».proof.Proof.Gen.KernelIdeal.Frame
import proofs.«171266_j39599598469525_1_alg».proof.Proof.Block
import Idealize.ShloMosaic.Lib.StableHlo.Run
import Idealize.ShloMosaic.Lib.Pipeline.Value
import Idealize.ShloMosaic.Lib.ValueIdx

set_option maxRecDepth 16384

noncomputable section

open scoped BigOperators

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The arrays as the region finds them -/

/-- The hidden states as 8192 rows. -/
theorem hidden_rows (c : Dev nD) :
    (V m c main_v0 : S8192x768.Idx → EReal) = shapeCast S8192x768 (m ((c : Thread nD τ).loc main_arg0)) shapeCasts_S4x2048x768_S8192x768 := by
  show StableHlo.after hostOps0 (fun b => m (c, b)) (Proc.devRef .tc main_v0) = _
  after_results <;> rfl

/-- The width table transposed. -/
theorem width_rows (c : Dev nD) :
    (V m c main_v1 : S12x768.Idx → EReal) = transpose S12x768 [1, 0] (m ((c : Thread nD τ).loc main_arg1)) transposes_S768x12_S12x768_1_0 := by
  show StableHlo.after hostOps0 (fun b => m (c, b)) (Proc.devRef .tc main_v1) = _
  after_results <;> rfl

/-- The bias as one row. -/
theorem bias_row (c : Dev nD) :
    (V m c main_v2 : S1x768.Idx → EReal) = shapeCast S1x768 (m ((c : Thread nD τ).loc main_arg3)) shapeCasts_S768_S1x768 := by
  show StableHlo.after hostOps0 (fun b => m (c, b)) (Proc.devRef .tc main_v2) = _
  after_results <;> rfl

/-- The layer over all 8192 rows, of the arrays as the region finds them. -/
abbrev allRows (c : Dev nD) : S8192x9216.Idx → EReal :=
  Cert.SpanQuery.rows (V m c main_v0) (V m c main_v1) (V m c main_arg2) (V m c main_v2)

/-! ## One point's write-back -/

/-- The printed index maps over the grid: the hidden window and the output window sit at row block t, column block
    0; the other three windows never move. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point t writes back is block t of the layer over all rows. -/
theorem flushed_eq (c : Dev nD) (t : Fin cfg0.N) :
    (dats m 0 c).flushed 4 t = ((cfg0.win 4).blk t).view.read (Elt Ideal) (allRows m c) := by
  show (cfg0.win 4).cut (grid0.coords t) ((dats m 0 c).after 4 t) = _
  rw [after0_4, Cert.KernelIdeal.Block.out_eq_rows]
  obtain ⟨a0, a1, b0, b1, c0, c1, d0, d1, e0, e1⟩ := idx_facts t
  funext j
  show Cert.SpanQuery.rows (iblk m c 0 t) (iblk m c 1 t) (iblk m c 2 t) (iblk m c 3 t) j
    = Cert.SpanQuery.rows (V m c main_v0) (V m c main_v1) (V m c main_arg2) (V m c main_v2) (((cfg0.win 4).blk t).view.emb j)
  unfold Cert.SpanQuery.rows
  have hj1 : (j 1).val < 9216 := (j 1).isLt
  refine Cert.SpanQuery.entry_congr (fun d => ?_) (fun d => ?_) (fun d => ?_) ?_
  · show V m c main_v0 (((cfg0.win 0).blk t).view.emb (ix2 (j 0) d)) = V m c main_v0 (ix2 ((((cfg0.win 4).blk t).view.emb j) 0) d)
    refine congrArg (V m c main_v0) (Shape.idx_ext₂ ?_ ?_)
    · show win0_0.index t (0 : Fin 2) * 256 + 1 * (j 0).val = win0_4.index t (0 : Fin 2) * 256 + 1 * (j 0).val
      omega
    · show win0_0.index t (1 : Fin 2) * 768 + 1 * d.val = d.val
      omega
  · show V m c main_arg2 (((cfg0.win 2).blk t).view.emb (ix2 ⟨(j 1).val % 768, Cert.SpanQuery.col_mod_lt (j 1)⟩ d))
      = V m c main_arg2 (ix2 ⟨((((cfg0.win 4).blk t).view.emb j) 1).val % 768, Cert.SpanQuery.col_mod_lt _⟩ d)
    refine congrArg (V m c main_arg2) (Shape.idx_ext₂ ?_ ?_)
    · show win0_2.index t (0 : Fin 2) * 768 + 1 * ((j 1).val % 768) = (win0_4.index t (1 : Fin 2) * 9216 + 1 * (j 1).val) % 768
      omega
    · show win0_2.index t (1 : Fin 2) * 768 + 1 * d.val = d.val
      omega
  · show V m c main_v1 (((cfg0.win 1).blk t).view.emb (ix2 ⟨(j 1).val / 768, Cert.SpanQuery.col_div_lt (j 1)⟩ d))
      = V m c main_v1 (ix2 ⟨((((cfg0.win 4).blk t).view.emb j) 1).val / 768, Cert.SpanQuery.col_div_lt _⟩ d)
    refine congrArg (V m c main_v1) (Shape.idx_ext₂ ?_ ?_)
    · show win0_1.index t (0 : Fin 2) * 12 + 1 * ((j 1).val / 768) = (win0_4.index t (1 : Fin 2) * 9216 + 1 * (j 1).val) / 768
      omega
    · show win0_1.index t (1 : Fin 2) * 768 + 1 * d.val = d.val
      omega
  · show V m c main_v2 (((cfg0.win 3).blk t).view.emb (ix2 ⟨0, Nat.one_pos⟩ ⟨(j 1).val % 768, Cert.SpanQuery.col_mod_lt (j 1)⟩))
      = V m c main_v2 (ix2 ⟨0, Nat.one_pos⟩ ⟨((((cfg0.win 4).blk t).view.emb j) 1).val % 768, Cert.SpanQuery.col_mod_lt _⟩)
    refine congrArg (V m c main_v2) (Shape.idx_ext₂ ?_ ?_)
    · show win0_3.index t (0 : Fin 2) * 1 + 1 * 0 = 0
      omega
    · show win0_3.index t (1 : Fin 2) * 768 + 1 * ((j 1).val % 768) = (win0_4.index t (1 : Fin 2) * 9216 + 1 * (j 1).val) % 768
      omega

/-! ## The blocks tile the output -/

/-- An index of the output is in point t's block iff each coordinate is in the block's range on its axis. -/
theorem mem_blk (t : Fin cfg0.N) (i : S8192x9216.Idx) :
    i ∈ ((cfg0.win 4).blk t).view.set ↔ ∀ a : Fin 2, win0_4.index t a * S256x9216.size a ≤ (i a).val ∧ (i a).val < win0_4.index t a * S256x9216.size a + S256x9216.size a := by
  show i ∈ ((View.whole main_v3).slice (win0_4.rect t)).set ↔ _
  rw [View.set_slice_whole, Rect.mem_set_unit]
  exact Iff.rfl

/-- Row r of the output lies in the block of point r / 256. -/
theorem cover (i : S8192x9216.Idx) : ∃ t : Fin cfg0.N, (cfg0.win 4).flush t = true ∧ i ∈ ((cfg0.win 4).blk t).view.set := by
  have hi0 : (i 0).val < 8192 := (i 0).isLt
  have hi1 : (i 1).val < 9216 := (i 1).isLt
  have hN : cfg0.N = 32 := N_0
  let t : Fin cfg0.N := ⟨(i 0).val / 256, by rw [hN]; omega⟩
  obtain ⟨-, -, -, -, -, -, -, -, e0, e1⟩ := idx_facts t
  have e0' : win0_4.index t (0 : Fin 2) = (i 0).val / 256 := e0
  refine ⟨t, flush0_4 t, ?_⟩
  rw [mem_blk]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 9216 ≤ (i 1).val ∧ (i 1).val < win0_4.index t (1 : Fin 2) * 9216 + 9216; omega

/-- After the run the output array is the layer over all rows. -/
theorem final (c : Dev nD) : (dats m 0 c).arrAt 4 cfg0.N = allRows m c :=
  (dats m 0 c).arrAt_eq_of_cover 4 (allRows m c) (fun t _ => flushed_eq m c t) (cover)

/-! ## The host's last view, and the layouts read back -/

/-- The result buffer after the host's last line: the output array viewed 4-dimensionally. -/
theorem tail_eq (c : Dev nD) :
    Pipeline.afterTail₀ cfgs (dats m) 0 (V0 m) [hostOps1] c main_v4
      = shapeCast S4x2048x12x768 (allRows m c) shapeCasts_S8192x9216_S4x2048x12x768 := by
  unfold Pipeline.afterTail₀
  show StableHlo.after hostOps1 _ (Proc.devRef .tc main_v4) = _
  after_results
  have e := (Pipeline.withArrays_arr spec0 launch0.win.arr_inj c (V0 m c) (fun w => (dats m 0 c).arrAt w cfg0.N) 4).trans (final m c)
  exact congrArg (fun X : S8192x9216.Idx → EReal => shapeCast S4x2048x12x768 X shapeCasts_S8192x9216_S4x2048x12x768) e

/-- The result buffer is the layer of the arguments as given. -/
theorem result_eq (c : Dev nD) :
    Pipeline.afterTail₀ cfgs (dats m) 0 (V0 m) [hostOps1] c main_v4
      = Cert.SpanQuery.layer (m ((c : Thread nD τ).loc main_arg0)) (m ((c : Thread nD τ).loc main_arg1))
          (m ((c : Thread nD τ).loc main_arg2)) (m ((c : Thread nD τ).loc main_arg3)) := by
  rw [tail_eq]
  funext i
  obtain ⟨b, l, s, e, rfl⟩ : ∃ (b : Fin 4) (l : Fin 2048) (s : Fin 12) (e : Fin 768), i = ix4 b l s e := ⟨i 0, i 1, i 2, i 3, eq_ix4 i⟩
  have hb := b.isLt; have hl := l.isLt; have hs := s.isLt; have he := e.isLt
  rw [shapeCast_apply (allRows m c) shapeCasts_S8192x9216_S4x2048x12x768 (ix4 b l s e)
    (ix2 ⟨b.val * 2048 + l.val, by omega⟩ ⟨s.val * 768 + e.val, by omega⟩) (by
      rw [Shape.rowMajor_val_two, Shape.rowMajor_val_four]
      show (b.val * 2048 + l.val) * 9216 + (s.val * 768 + e.val) = ((b.val * 2048 + l.val) * 12 + s.val) * 768 + e.val
      omega)]
  unfold allRows Cert.SpanQuery.rows Cert.SpanQuery.layer
  refine Cert.SpanQuery.entry_congr (fun d => ?_) (fun d => ?_) (fun d => ?_) ?_
  · show V m c main_v0 (ix2 ⟨b.val * 2048 + l.val, _⟩ d) = m ((c : Thread nD τ).loc main_arg0) (ix3 b l d)
    rw [hidden_rows]
    exact shapeCast_apply _ _ _ (ix3 b l d) (by
      rw [Shape.rowMajor_val_two, Shape.rowMajor_val_three]
      show (b.val * 2048 + l.val) * 768 + d.val = (b.val * 2048 + l.val) * 768 + d.val
      rfl)
  · show V m c main_arg2 (ix2 ⟨(s.val * 768 + e.val) % 768, _⟩ d) = m ((c : Thread nD τ).loc main_arg2) (ix2 e d)
    rw [V_main_arg2]
    exact congrArg _ (Shape.idx_ext₂ (by show (s.val * 768 + e.val) % 768 = e.val; omega) rfl)
  · show V m c main_v1 (ix2 ⟨(s.val * 768 + e.val) / 768, _⟩ d) = m ((c : Thread nD τ).loc main_arg1) (ix2 d s)
    rw [width_rows]
    have hi : (ix2 ⟨(s.val * 768 + e.val) / 768, Cert.SpanQuery.col_div_lt ⟨s.val * 768 + e.val, by omega⟩⟩ d : S12x768.Idx) = ix2 s d :=
      Shape.idx_ext₂ (by show (s.val * 768 + e.val) / 768 = s.val; omega) rfl
    refine (congrArg _ hi).trans ?_
    exact transpose_apply [1, 0] _ transposes_S768x12_S12x768_1_0 (ix2 s d) (ix2 d s) (fun a => match a with
      | ⟨0, _⟩ => rfl
      | ⟨1, _⟩ => rfl)
  · show V m c main_v2 (ix2 ⟨0, Nat.one_pos⟩ ⟨(s.val * 768 + e.val) % 768, _⟩) = m ((c : Thread nD τ).loc main_arg3) (ix1 e)
    rw [bias_row]
    exact shapeCast_apply _ _ _ (ix1 e) (by
      rw [Shape.rowMajor_val_two, Shape.rowMajor_val_one]
      show e.val = 0 * 768 + (s.val * 768 + e.val) % 768
      omega)

/-! ## The run, read -/

/-- Every weakly fair execution of the kernel's program ends with the result buffer at the layer of the arguments
    and the arguments unchanged. -/
theorem run : θ_run defs (onTc (τ := τ) (main (F := Ideal))) ⟨m, fun _ => 0, ρ⟩ fun r => ∀ c : Dev nD,
      r.2.mem ((c.tc : Thread nD τ).loc main_v4)
        = Cert.SpanQuery.layer (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Whole

end
-- ==== Proof.lean ====
/-
  The span-query layer: for hidden states h (4 × 2048 × 768), a width table q (768 × 12), a weight W (768 × 768) and a
  bias b (768), the result at (batch, position, width, feature) is
      max (∑ d, h[batch, position, d] * q[d, width] * W[feature, d] + b[feature]) 0 .

  The kernel walks the 8192 (batch, position) rows in 32 blocks of 256; for each of the 12 widths it scales the weight
  by that width's row of the transposed table, contracts the hidden block against the scaled weight, adds the bias and
  clamps at zero, and stores the tile in the width's 768 columns of a 9216-column row. The reference scales the hidden
  states by the width row instead, contracts against the bare weight, adds the bias and clamps. Over the extended reals
  every change of float format is the identity, a product into a zero accumulator is the plain sum of products, and
  x * (w * r) = (x * r) * w for all extended reals, so both compute the one function `Cert.SpanQuery.layer` of the
  arguments: the kernel side is Proof/Tile, Proof/Block and Proof/KernelValue, the reference side Proof/RefValue, the
  function and the law Proof/Spec. No input needs to be finite for this, so the precondition is never opened.

  The word-level kernel and the idealized kernel run to completion with their arguments unchanged by their generated
  frames; the reference's frame is its generated run with the result dropped; the idealized kernel is the kernel's own
  text read over the extended reals, so there is nothing to preserve beyond that.
-/
import proofs.«171266_j39599598469525_1_alg».proof.Defs
import proofs.«171266_j39599598469525_1_alg».proof.Proof.Gen.Kernel
import proofs.«171266_j39599598469525_1_alg».proof.Proof.Gen.Kernel.Skeleton
import proofs.«171266_j39599598469525_1_alg».proof.Proof.Gen.Kernel.Launch
import proofs.«171266_j39599598469525_1_alg».proof.Proof.Gen.Kernel.Points
import proofs.«171266_j39599598469525_1_alg».proof.Proof.Gen.Kernel.Frame
import proofs.«171266_j39599598469525_1_alg».proof.Proof.Gen.KernelIdeal
import proofs.«171266_j39599598469525_1_alg».proof.Proof.Gen.KernelIdeal.Skeleton
import proofs.«171266_j39599598469525_1_alg».proof.Proof.Gen.KernelIdeal.Launch
import proofs.«171266_j39599598469525_1_alg».proof.Proof.Gen.KernelIdeal.Points
import proofs.«171266_j39599598469525_1_alg».proof.Proof.Gen.KernelIdeal.Frame
import proofs.«171266_j39599598469525_1_alg».proof.Proof.Gen.ReferenceIdeal
import proofs.«171266_j39599598469525_1_alg».proof.Proof.Gen.ReferenceIdeal.Run
import proofs.«171266_j39599598469525_1_alg».proof.Proof.Gen.ReferenceIdeal.Read
import proofs.«171266_j39599598469525_1_alg».proof.Proof.Gen.Pre_finite_inputs
import proofs.«171266_j39599598469525_1_alg».proof.Proof.RefValue
import proofs.«171266_j39599598469525_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the four arguments, the kernel's result buffer and the reference's both end at the
    layer of those arguments. -/
theorem algebraic : Cert.algebraic_KernelIdeal_ReferenceIdeal := by
  intro m ρ m' ρ' _ hagree
  refine ⟨fun c => Cert.SpanQuery.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.stage_eq_layer, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
